-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x512 : Shape := ⟨3, ![1, 50000, 512]⟩
abbrev S1x2x800000 : Shape := ⟨3, ![1, 2, 800000]⟩
abbrev S1x50000x256 : Shape := ⟨3, ![1, 50000, 256]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S1x50000x512 : S_.BroadcastsInDim S1x50000x512 (![] : Fin 0 → Fin S1x50000x512.rank)
  reducesTo_S1x50000x512_S_d0_1_2 : S1x50000x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1x50000x512 .f32) (main_arg1 : IVec S1x2x800000 32) (main_arg2 : IVec S1x50000x256 32) (main_arg3 : FVec F S512x256 .f32) (main_arg4 : FVec F S256 .f32) (main_arg5 : FVec F S256x64 .f32) (main_arg6 : FVec F S64 .f32) : IVec S_ 1 :=
  let main_v0 : FVec F S1x50000x512 .f32 := Host.absf main_arg0
  let main_cst : FVec F S_ .f32 := constant S_ .f32 0x7F800000#32
  let main_v1 : FVec F S1x50000x512 .f32 := broadcastInDim S1x50000x512 ![] bcast_S_S1x50000x512 main_cst
  let main_v2 : IVec S1x50000x512 1 := cmpf .olt main_v0 main_v1
  let main_c : IVec S_ 1 := constantI S_ 1 1#1
  let main_v3 : IVec S_ 1 := (fun x v => Host.reduce IntOp.andi x v reducesTo_S1x50000x512_S_d0_1_2 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S1x50000x512 : Shape := ⟨3, ![1, 50000, 512]⟩
abbrev S1x2x800000 : Shape := ⟨3, ![1, 2, 800000]⟩
abbrev S1x50000x256 : Shape := ⟨3, ![1, 50000, 256]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x512 : Shape := ⟨2, ![50000, 512]⟩
abbrev S1x1x800000 : Shape := ⟨3, ![1, 1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S1x50000x64 : Shape := ⟨3, ![1, 50000, 64]⟩

abbrev nBuf : Space → Nat
  | .hbm => 92
  | .vmem => 17
  | .smem => 0
  | _ => 0

abbrev bufTy : (tb : Table) → Fin (tcTables nBuf tb) → BufTy
  | .hbm, ⟨0, _⟩ => ⟨S1x50000x512, .f32⟩
  | .hbm, ⟨1, _⟩ => ⟨S1x2x800000, .i32⟩
  | .hbm, ⟨2, _⟩ => ⟨S1x50000x256, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S50000x512, .f32⟩
  | .hbm, ⟨8, _⟩ => ⟨S1x1x800000, .i32⟩
  | .hbm, ⟨9, _⟩ => ⟨S800000, .i32⟩
  | .hbm, ⟨10, _⟩ => ⟨S1x1x800000, .i32⟩
  | .hbm, ⟨11, _⟩ => ⟨S800000, .i32⟩
  | .hbm, ⟨12, _⟩ => ⟨S50000x256, .i32⟩
  | .hbm, ⟨13, _⟩ => ⟨S50000x256, .f32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S512x256, .bf16⟩
  | .hbm, ⟨51, _⟩ => ⟨S256x64, .bf16⟩
  | .hbm, ⟨52, _⟩ => ⟨S50000x256, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .f32⟩
  | .hbm, ⟨62, _⟩ => ⟨S850000x1, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S1x50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x64, .bf16⟩
  | .local _ .vmem, ⟨15, _⟩ => ⟨S2000x64, .f32⟩
  | .local _ .vmem, ⟨16, _⟩ => ⟨S2000x64, .f32⟩
  | _, _ => ⟨S1x50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x50000x512_S50000x512 : S1x50000x512.ShapeCasts S50000x512
  slices_S1x2x800000_S1x1x800000_0_0_0 : S1x2x800000.Slices ![0, 0, 0] S1x1x800000
  shapeCasts_S1x1x800000_S800000 : S1x1x800000.ShapeCasts S800000
  slices_S1x2x800000_S1x1x800000_0_1_0 : S1x2x800000.Slices ![0, 1, 0] S1x1x800000
  shapeCasts_S1x50000x256_S50000x256 : S1x50000x256.ShapeCasts S50000x256
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x64_S1x50000x64_1_2 : S50000x64.BroadcastsInDim S1x50000x64 (![1, 2] : Fin 2 → Fin S1x50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x50000x512 : Shape := ⟨3, ![1, 50000, 512]⟩
abbrev S1x2x800000 : Shape := ⟨3, ![1, 2, 800000]⟩
abbrev S1x50000x256 : Shape := ⟨3, ![1, 50000, 256]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x512 : Shape := ⟨2, ![50000, 512]⟩
abbrev S1x1x800000 : Shape := ⟨3, ![1, 1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S1x50000x64 : Shape := ⟨3, ![1, 50000, 64]⟩

abbrev nBuf : Space → Nat
  | .hbm => 134
  | .vmem => 0
  | .smem => 0
  | _ => 0

abbrev hbmTy0_0 (i : Nat) : BufTy := match i % 128 with
  | 0 => ⟨S1x50000x512, .f32⟩
  | 1 => ⟨S1x2x800000, .i32⟩
  | 2 => ⟨S1x50000x256, .i32⟩
  | 3 => ⟨S512x256, .f32⟩
  | 4 => ⟨S256, .f32⟩
  | 5 => ⟨S256x64, .f32⟩
  | 6 => ⟨S64, .f32⟩
  | 7 => ⟨S50000x512, .f32⟩
  | 8 => ⟨S1x1x800000, .i32⟩
  | 9 => ⟨S800000, .i32⟩
  | 10 => ⟨S1x1x800000, .i32⟩
  | 11 => ⟨S800000, .i32⟩
  | 12 => ⟨S50000x256, .i32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000, .i32⟩
  | 78 => ⟨S850000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S50000x64, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S1x50000x512, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | 5 => ⟨S1x50000x64, .f32⟩
  | _ => ⟨S1x50000x512, .f32⟩

abbrev hbmTy (i : Nat) : BufTy := match i / 128 with
  | 0 => hbmTy0_0 i
  | 1 => hbmTy0_1 i
  | _ => ⟨S1x50000x512, .f32⟩

abbrev bufTy : (tb : Table) → Fin (tcTables nBuf tb) → BufTy
  | .hbm, ⟨i, _⟩ => hbmTy i
  | _, _ => ⟨S1x50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  shapeCasts_S1x50000x512_S50000x512 : S1x50000x512.ShapeCasts S50000x512
  slices_S1x2x800000_S1x1x800000_0_0_0 : S1x2x800000.Slices ![0, 0, 0] S1x1x800000
  shapeCasts_S1x1x800000_S800000 : S1x1x800000.ShapeCasts S800000
  slices_S1x2x800000_S1x1x800000_0_1_0 : S1x2x800000.Slices ![0, 1, 0] S1x1x800000
  shapeCasts_S1x50000x256_S50000x256 : S1x50000x256.ShapeCasts S50000x256
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x64_S1x50000x64_1_2 : S50000x64.BroadcastsInDim S1x50000x64 (![1, 2] : Fin 2 → Fin S1x50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KHost.lean ====
/-
  The host stretches of the kernel's program, read against the stages of the plain array program.

  Both programs apply the same chains of array operations around the three matrix kernels: the batch axis of extent one
  is dropped from the features; the edge list is cut into source and target rows and the self-loops appended; the
  degree of every node is a scatter-sum of ones, its inverse square root (zero where the degree is not positive) is
  gathered at both ends of every edge and the two multiplied (the edge weight); the keep-mask is converted to floats.
  One aggregation step gathers the rows of a node matrix at the (wrapped) source indices, scales every gathered row by
  its edge weight and scatter-sums the rows at the target indices. `agg1` is that step on 256 columns; `agg2` is that
  step on 64 columns followed by the output bias (made a row, repeated down the rows) and the batch axis of extent one
  put back. Read through these two functions, what the kernel's program holds at every boundary between its segments
  is a stage of the plain program applied to the same arguments; nothing here opens a gather or a scatter.
-/
import proofs.«125046_j62818191671411_1_alg».proof.Proof.Gen.KernelIdeal.Frame
import proofs.«125046_j62818191671411_1_alg».proof.Proof.RefRead
import Idealize.ShloMosaic.Lib.StableHlo.Run

set_option maxRecDepth 16384

noncomputable section

namespace Cert.Gcn.KHost

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]

/-! ## The two aggregation steps, over the plain program's own index and weight stages -/

/-- Gather the rows of `H` at the wrapped source indices, scale by the edge weights, scatter-sum at the targets (256 columns). -/
def agg1 (H : (⟨Cert.ReferenceIdeal.S50000x256, .f32⟩ : BufTy).Contents (Elt F)) (x1 : (⟨Cert.ReferenceIdeal.S1x2x800000, .i32⟩ : BufTy).Contents (Elt F)) :
    (⟨Cert.ReferenceIdeal.S50000x256, .f32⟩ : BufTy).Contents (Elt F) :=
  Host.scatterAdd Cert.ReferenceIdeal.scatter_S50000x256_S850000x1_S850000x256_1_0_0_1 (val_main_v43 (F := F)) (val_main_v44 (F := F) x1)
    (mulf (Host.gather Cert.ReferenceIdeal.gather_S50000x256_S850000x1_S850000x256_1_0_n_n_0_1_1256 H (val_main_v38 (F := F) x1)) (val_main_v41 (F := F) x1))

/-- The plain program's first aggregation is `agg1` of its first linear map. -/
theorem ref_agg1 (x0 : (⟨Cert.ReferenceIdeal.S1x50000x512, .f32⟩ : BufTy).Contents (Elt F)) (x1 : (⟨Cert.ReferenceIdeal.S1x2x800000, .i32⟩ : BufTy).Contents (Elt F))
    (x3 : (⟨Cert.ReferenceIdeal.S512x256, .f32⟩ : BufTy).Contents (Elt F)) :
    val_main_v45 (F := F) x0 x1 x3 = agg1 (val_main_v32 (F := F) x0 x3) x1 := rfl

/-- The same step on 64 columns, then the output bias and the batch axis of extent one. -/
def agg2 (H : (⟨Cert.ReferenceIdeal.S50000x64, .f32⟩ : BufTy).Contents (Elt F)) (x1 : (⟨Cert.ReferenceIdeal.S1x2x800000, .i32⟩ : BufTy).Contents (Elt F))
    (x6 : (⟨Cert.ReferenceIdeal.S64, .f32⟩ : BufTy).Contents (Elt F)) : (⟨Cert.ReferenceIdeal.S1x50000x64, .f32⟩ : BufTy).Contents (Elt F) :=
  broadcastInDim Cert.ReferenceIdeal.S1x50000x64 ![1, 2] Cert.ReferenceIdeal.Facts₀.bcast_S50000x64_S1x50000x64_1_2
    (addf (Host.scatterAdd Cert.ReferenceIdeal.scatter_S50000x64_S850000x1_S850000x64_1_0_0_1 (val_main_v91 (F := F)) (val_main_v92 (F := F) x1)
        (mulf (Host.gather Cert.ReferenceIdeal.gather_S50000x64_S850000x1_S850000x64_1_0_n_n_0_1_164 H (val_main_v86 (F := F) x1)) (val_main_v89 (F := F) x1)))
      (val_main_v95 (F := F) x6))

/-- The plain program's result is `agg2` of its second linear map. -/
theorem ref_agg2 (x0 : (⟨Cert.ReferenceIdeal.S1x50000x512, .f32⟩ : BufTy).Contents (Elt F)) (x1 : (⟨Cert.ReferenceIdeal.S1x2x800000, .i32⟩ : BufTy).Contents (Elt F))
    (x2 : (⟨Cert.ReferenceIdeal.S1x50000x256, .i32⟩ : BufTy).Contents (Elt F)) (x3 : (⟨Cert.ReferenceIdeal.S512x256, .f32⟩ : BufTy).Contents (Elt F))
    (x4 : (⟨Cert.ReferenceIdeal.S256, .f32⟩ : BufTy).Contents (Elt F)) (x5 : (⟨Cert.ReferenceIdeal.S256x64, .f32⟩ : BufTy).Contents (Elt F))
    (x6 : (⟨Cert.ReferenceIdeal.S64, .f32⟩ : BufTy).Contents (Elt F)) :
    val_main_v97 (F := F) x0 x1 x2 x3 x4 x5 x6 = agg2 (val_main_v80 (F := F) x0 x1 x2 x3 x4 x5) x1 x6 := rfl

/-! ## The kernel's program, boundary by boundary -/

variable (m : (ℓ : Loc nD τ sig) → Buf (Elt F) ℓ) (ρ : Dev nD → PrngReg) (c : Dev nD)

/-- Unfold a stretch's operation list and read one buffer after it. -/
macro "host_read" : tactic =>
  `(tactic| (simp only [hostOps0, hostOps0_1, hostOps0_2, hostOps1, hostOps3]; after_results_simp))

/-! ### At the first region's entry -/

/-- The features with the batch axis dropped. -/
theorem W3_v0 : W3 m ρ c (Proc.devRef .tc main_v0) = val_main_v0 (F := F) (m ((c : Thread nD τ).loc main_arg0)) := by
  show StableHlo.after hostOps0_2 (StableHlo.after hostOps0_1 (StableHlo.after hostOps0 (W0 m ρ c))) (Proc.devRef .tc main_v0) = _
  host_read
  rfl

/-- The keep-mask converted to floats. -/
theorem W3_v6 : W3 m ρ c (Proc.devRef .tc main_v6) = val_main_v50 (F := F) (m ((c : Thread nD τ).loc main_arg2)) := by
  show StableHlo.after hostOps0_2 (StableHlo.after hostOps0_1 (StableHlo.after hostOps0 (W0 m ρ c))) (Proc.devRef .tc main_v6) = _
  host_read
  rfl

/-- The source indices with the self-loops appended. -/
theorem W3_v8 : W3 m ρ c (Proc.devRef .tc main_v8) = val_main_v7 (F := F) (m ((c : Thread nD τ).loc main_arg1)) := by
  show StableHlo.after hostOps0_2 (StableHlo.after hostOps0_1 (StableHlo.after hostOps0 (W0 m ρ c))) (Proc.devRef .tc main_v8) = _
  host_read
  rfl

/-- The target indices with the self-loops appended. -/
theorem W3_v9 : W3 m ρ c (Proc.devRef .tc main_v9) = val_main_v8 (F := F) (m ((c : Thread nD τ).loc main_arg1)) := by
  show StableHlo.after hostOps0_2 (StableHlo.after hostOps0_1 (StableHlo.after hostOps0 (W0 m ρ c))) (Proc.devRef .tc main_v9) = _
  host_read
  rfl

/-- The edge weights. -/
theorem W3_v32 : W3 m ρ c (Proc.devRef .tc main_v32) = val_main_v31 (F := F) (m ((c : Thread nD τ).loc main_arg1)) := by
  show StableHlo.after hostOps0_2 (StableHlo.after hostOps0_1 (StableHlo.after hostOps0 (W0 m ρ c))) (Proc.devRef .tc main_v32) = _
  host_read
  rfl

/-- The first weight matrix, narrowed. -/
theorem W3_v33 : W3 m ρ c (Proc.devRef .tc main_v33) = truncf .bf16 (m ((c : Thread nD τ).loc main_arg3)) bitsLt_bf16_f32 := by
  show StableHlo.after hostOps0_2 (StableHlo.after hostOps0_1 (StableHlo.after hostOps0 (W0 m ρ c))) (Proc.devRef .tc main_v33) = _
  host_read

/-- The second weight matrix, narrowed. -/
theorem W3_v34 : W3 m ρ c (Proc.devRef .tc main_v34) = truncf .bf16 (m ((c : Thread nD τ).loc main_arg5)) bitsLt_bf16_f32 := by
  show StableHlo.after hostOps0_2 (StableHlo.after hostOps0_1 (StableHlo.after hostOps0 (W0 m ρ c))) (Proc.devRef .tc main_v34) = _
  host_read

/-- The first bias is untouched. -/
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  host_read

/-- The second bias is untouched. -/
theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  host_read

/-! ### Past the first region: it writes only its own output array -/

theorem W4_v6 : W4 m ρ c (Proc.devRef .tc main_v6) = val_main_v50 (F := F) (m ((c : Thread nD τ).loc main_arg2)) :=
  (W4_of_ne m ρ c main_v6 (by decide)).trans (W3_v6 m ρ c)
theorem W4_v8 : W4 m ρ c (Proc.devRef .tc main_v8) = val_main_v7 (F := F) (m ((c : Thread nD τ).loc main_arg1)) :=
  (W4_of_ne m ρ c main_v8 (by decide)).trans (W3_v8 m ρ c)
theorem W4_v9 : W4 m ρ c (Proc.devRef .tc main_v9) = val_main_v8 (F := F) (m ((c : Thread nD τ).loc main_arg1)) :=
  (W4_of_ne m ρ c main_v9 (by decide)).trans (W3_v9 m ρ c)
theorem W4_v32 : W4 m ρ c (Proc.devRef .tc main_v32) = val_main_v31 (F := F) (m ((c : Thread nD τ).loc main_arg1)) :=
  (W4_of_ne m ρ c main_v32 (by decide)).trans (W3_v32 m ρ c)
theorem W4_v34 : W4 m ρ c (Proc.devRef .tc main_v34) = truncf .bf16 (m ((c : Thread nD τ).loc main_arg5)) bitsLt_bf16_f32 :=
  (W4_of_ne m ρ c main_v34 (by decide)).trans (W3_v34 m ρ c)
theorem W4_arg4 : W4 m ρ c (Proc.devRef .tc main_arg4) = m ((c : Thread nD τ).loc main_arg4) :=
  (W4_of_ne m ρ c main_arg4 (by decide)).trans (W3_arg4 m ρ c)
theorem W4_arg6 : W4 m ρ c (Proc.devRef .tc main_arg6) = m ((c : Thread nD τ).loc main_arg6) :=
  (W4_of_ne m ρ c main_arg6 (by decide)).trans (W3_arg6 m ρ c)

/-! ### At the second region's entry -/

/-- The first aggregation, of whatever the first region left as the linear map. -/
theorem W5_v48 (H : (⟨Cert.ReferenceIdeal.S50000x256, .f32⟩ : BufTy).Contents (Elt F)) (h : W4 m ρ c (Proc.devRef .tc main_v35) = H) :
    W5 m ρ c (Proc.devRef .tc main_v48) = agg1 H (m ((c : Thread nD τ).loc main_arg1)) := by
  show StableHlo.after hostOps1 (W4 m ρ c) (Proc.devRef .tc main_v48) = _
  host_read
  rw [h, W4_v8 m ρ c, W4_v9 m ρ c, W4_v32 m ρ c]
  rfl

/-- The first bias as a one-row matrix. -/
theorem W5_v49 : W5 m ρ c (Proc.devRef .tc main_v49) = shapeCast S1x256 (m ((c : Thread nD τ).loc main_arg4)) shapeCasts_S256_S1x256 := by
  show StableHlo.after hostOps1 (W4 m ρ c) (Proc.devRef .tc main_v49) = _
  host_read
  rw [W4_arg4 m ρ c]
  rfl

theorem W5_v6 : W5 m ρ c (Proc.devRef .tc main_v6) = val_main_v50 (F := F) (m ((c : Thread nD τ).loc main_arg2)) := by
  show StableHlo.after hostOps1 (W4 m ρ c) (Proc.devRef .tc main_v6) = _
  host_read
  exact W4_v6 m ρ c
theorem W5_v8 : W5 m ρ c (Proc.devRef .tc main_v8) = val_main_v7 (F := F) (m ((c : Thread nD τ).loc main_arg1)) := by
  show StableHlo.after hostOps1 (W4 m ρ c) (Proc.devRef .tc main_v8) = _
  host_read
  exact W4_v8 m ρ c
theorem W5_v9 : W5 m ρ c (Proc.devRef .tc main_v9) = val_main_v8 (F := F) (m ((c : Thread nD τ).loc main_arg1)) := by
  show StableHlo.after hostOps1 (W4 m ρ c) (Proc.devRef .tc main_v9) = _
  host_read
  exact W4_v9 m ρ c
theorem W5_v32 : W5 m ρ c (Proc.devRef .tc main_v32) = val_main_v31 (F := F) (m ((c : Thread nD τ).loc main_arg1)) := by
  show StableHlo.after hostOps1 (W4 m ρ c) (Proc.devRef .tc main_v32) = _
  host_read
  exact W4_v32 m ρ c
theorem W5_v34 : W5 m ρ c (Proc.devRef .tc main_v34) = truncf .bf16 (m ((c : Thread nD τ).loc main_arg5)) bitsLt_bf16_f32 := by
  show StableHlo.after hostOps1 (W4 m ρ c) (Proc.devRef .tc main_v34) = _
  host_read
  exact W4_v34 m ρ c
theorem W5_arg6 : W5 m ρ c (Proc.devRef .tc main_arg6) = m ((c : Thread nD τ).loc main_arg6) := by
  show StableHlo.after hostOps1 (W4 m ρ c) (Proc.devRef .tc main_arg6) = _
  host_read
  exact W4_arg6 m ρ c

/-! ### Past the second and third regions: each writes only its own output array -/

theorem W6_v34 : W6 m ρ c (Proc.devRef .tc main_v34) = truncf .bf16 (m ((c : Thread nD τ).loc main_arg5)) bitsLt_bf16_f32 :=
  (W6_of_ne m ρ c main_v34 (by decide)).trans (W5_v34 m ρ c)
theorem W7_v8 : W7 m ρ c (Proc.devRef .tc main_v8) = val_main_v7 (F := F) (m ((c : Thread nD τ).loc main_arg1)) :=
  (W7_of_ne m ρ c main_v8 (by decide)).trans ((W6_of_ne m ρ c main_v8 (by decide)).trans (W5_v8 m ρ c))
theorem W7_v9 : W7 m ρ c (Proc.devRef .tc main_v9) = val_main_v8 (F := F) (m ((c : Thread nD τ).loc main_arg1)) :=
  (W7_of_ne m ρ c main_v9 (by decide)).trans ((W6_of_ne m ρ c main_v9 (by decide)).trans (W5_v9 m ρ c))
theorem W7_v32 : W7 m ρ c (Proc.devRef .tc main_v32) = val_main_v31 (F := F) (m ((c : Thread nD τ).loc main_arg1)) :=
  (W7_of_ne m ρ c main_v32 (by decide)).trans ((W6_of_ne m ρ c main_v32 (by decide)).trans (W5_v32 m ρ c))
theorem W7_arg6 : W7 m ρ c (Proc.devRef .tc main_arg6) = m ((c : Thread nD τ).loc main_arg6) :=
  (W7_of_ne m ρ c main_arg6 (by decide)).trans ((W6_of_ne m ρ c main_arg6 (by decide)).trans (W5_arg6 m ρ c))

/-! ### After the last stretch -/

/-- The result: the second aggregation, bias and batch axis, of whatever the third region left as the linear map. The
    plain program recomputes its index and weight stages for its second layer; they are the same terms. -/
theorem W8_v68 (H : (⟨Cert.ReferenceIdeal.S50000x64, .f32⟩ : BufTy).Contents (Elt F)) (h : W7 m ρ c (Proc.devRef .tc main_v51) = H) :
    W8 m ρ c (Proc.devRef .tc main_v68) = agg2 H (m ((c : Thread nD τ).loc main_arg1)) (m ((c : Thread nD τ).loc main_arg6)) := by
  show StableHlo.after hostOps3 (W7 m ρ c) (Proc.devRef .tc main_v68) = _
  host_read
  rw [h, W7_v8 m ρ c, W7_v9 m ρ c, W7_v32 m ρ c, W7_arg6 m ρ c]
  rfl

end Cert.Gcn.KHost

end
-- ==== Proof.Spec.lean ====
/-
  The two array functions a two-layer graph convolution is made of, over the extended reals.

  `mm l r` is the plain product of an M × K matrix by a K × N matrix: entry (p, q) is Σₖ l(p, k) · r(k, q).
  `act a b w` adds the one-row matrix `b` to every row of `a`, rectifies (the maximum with the zero both programs
  spell as the float word 0x00000000), multiplies by the keep-mask `w` entry by entry and then by the scale both
  programs spell as the float word 0x40000000: entry (p, q) is (max(a(p, q) + b(0, q), 0) · w(p, q)) · 2,
  in that order of the two products.
-/
import Idealize.ShloMosaic.PureOps.Ideal
import Idealize.ShloMosaic.Lib.ValueIdx

noncomputable section

namespace Cert.Gcn

open Idealize.ShloMosaic Idealize.ShloMosaic.ValueIdx

/-- The plain matrix product, entry by entry. -/
def mm {M K N : Nat} (l : (⟨2, ![M, K]⟩ : Shape).Idx → EReal) (r : (⟨2, ![K, N]⟩ : Shape).Idx → EReal) :
    (⟨2, ![M, N]⟩ : Shape).Idx → EReal :=
  fun i => ∑ k : Fin K, l (ix2 (i 0) k) * r (ix2 k (i 1))

theorem mm_apply {M K N : Nat} (l : (⟨2, ![M, K]⟩ : Shape).Idx → EReal) (r : (⟨2, ![K, N]⟩ : Shape).Idx → EReal)
    (p : Fin M) (q : Fin N) : mm l r (ix2 p q) = ∑ k : Fin K, l (ix2 p k) * r (ix2 k q) := rfl

/-- The rectifier's zero and the keep-scale, as the float words the programs spell. -/
abbrev Z : EReal := Ideal.ofBits .f32 0x00000000#32
abbrev Two : EReal := Ideal.ofBits .f32 0x40000000#32

/-- Bias row, rectifier, keep-mask, scale: entry by entry. -/
def act {M N : Nat} (a : (⟨2, ![M, N]⟩ : Shape).Idx → EReal) (b : (⟨2, ![1, N]⟩ : Shape).Idx → EReal)
    (w : (⟨2, ![M, N]⟩ : Shape).Idx → EReal) : (⟨2, ![M, N]⟩ : Shape).Idx → EReal :=
  fun i => (max (a i + b (ix2 (0 : Fin 1) (i 1))) Z * w i) * Two

theorem act_apply {M N : Nat} (a : (⟨2, ![M, N]⟩ : Shape).Idx → EReal) (b : (⟨2, ![1, N]⟩ : Shape).Idx → EReal)
    (w : (⟨2, ![M, N]⟩ : Shape).Idx → EReal) (p : Fin M) (q : Fin N) :
    act a b w (ix2 p q) = (max (a (ix2 p q) + b (ix2 (0 : Fin 1) q)) Z * w (ix2 p q)) * Two := rfl

end Cert.Gcn

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.RegionMatmul.lean ====
/-
  The two tiled matrix products of the kernel program, read as whole arrays.

  Regions 0 and 2 run the same kernel on a grid of 25 points.  At point t the kernel is handed rows
  [2000·t, 2000·t + 2000) of the left matrix with all of their columns, the whole right matrix, and rows
  [2000·t, 2000·t + 2000) of the output.  It rounds nothing over the extended reals, multiplies the two blocks into a
  zero accumulator and stores the product, so what point t writes back is block t of the plain product of the two
  arrays as the region finds them.  The 25 row blocks tile the 50000 rows — row r lies in the block of point r / 2000 —
  and every point writes its block back, so after the region the output array is the plain product.
-/
import proofs.«125046_j62818191671411_1_alg».proof.Proof.Gen.KernelIdeal.Frame
import proofs.«125046_j62818191671411_1_alg».proof.Proof.Spec
import proofs.«125046_j62818191671411_1_alg».proof.Proof.LibDotPlain
import Idealize.ShloMosaic.PureOps.Ideal.Laws
import Idealize.ShloMosaic.Lib.ValueIdx
import Idealize.ShloMosaic.Lib.Pipeline.Value
noncomputable section
namespace Cert.Gcn.RegionMatmul
open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

/-- The zero offset of a whole block. -/
theorem off_zero : (![0, 0] : Fin 2 → Nat) = fun _ => 0 := funext fun a => by fin_cases a <;> rfl

/-! ## Region 0: the product a point computes, entry by entry -/

/-- The first product's dimension record is the plain 2000 × 512 by 512 × 256 product's. -/
theorem dims0_plain : dot_S2000x512_S512x256_S2000x256_1_0_0_1_n_n = DotDims.plain 2000 512 256 := rfl

/-- Entry (p, q) of what a point of region 0 stores: Σₖ x0(p, k) · x1(k, q) over the 512 contraction positions. -/
theorem prod0_apply (x0 : Vec Ideal S2000x512 .f32) (x1 : Vec Ideal S512x256 .bf16) (p : Fin 2000) (q : Fin 256) :
    k0_pay1 (F := Ideal) x0 x1 (ix2 p q) = ∑ k : Fin 512, x0 (ix2 p k) * x1 (ix2 k q) := by
  unfold k0_pay1
  rw [shapeCast_self, shapeCast_self, dims0_plain]
  exact Cert.LibDot.mm_plain 2000 512 256 (φ₁ := .bf16) (φ₂ := .bf16) (truncf .bf16 x0 bitsLt_bf16_f32) x1 p q

/-! ## Region 0: what a point reads and what it writes back -/

/-- The block indices over the grid of region 0: at point t the left matrix's and the output's row block is t, the
    column block is 0, and the right matrix's block is (0, 0). -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left block at point t is entry (2000·t + p, k) of the left matrix. -/
theorem left0_apply (c : Dev nD) (t : Fin cfg0.N) (p : Fin 2000) (k : Fin 512) (r : Fin 50000)
    (hr : r.val = 2000 * t.val + p.val) :
    (iblk0 V c 0 t : Vec Ideal S2000x512 .f32) (ix2 p k) = (V c main_v0 : S50000x512.Idx → EReal) (ix2 r k) := by
  obtain ⟨e0, e1, -, -, -, -⟩ := blocks0 t
  unfold iblk0
  rw [View.read_apply]
  show V c main_v0 _ = V c main_v0 _
  congr 1
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- The right block at every point is the whole right matrix. -/
theorem right0_apply (c : Dev nD) (t : Fin cfg0.N) (k : Fin 512) (q : Fin 256) :
    (iblk0 V c 1 t : Vec Ideal S512x256 .bf16) (ix2 k q) = (V c main_v33 : S512x256.Idx → EReal) (ix2 k q) := by
  obtain ⟨-, -, e2, e3, -, -⟩ := blocks0 t
  unfold iblk0
  rw [View.read_apply]
  show V c main_v33 _ = V c main_v33 _
  congr 1
  funext a
  apply Fin.ext
  match a with
  | ⟨0, _⟩ => show win0_1.index t (0 : Fin 2) * 512 + 1 * k.val = k.val; omega
  | ⟨1, _⟩ => show win0_1.index t (1 : Fin 2) * 256 + 1 * q.val = q.val; omega

/-- Entry (p, q) of the output block at point t sits at entry (2000·t + p, q) of the output array. -/
theorem out0_emb (t : Fin cfg0.N) (p : Fin 2000) (q : Fin 256) (r : Fin 50000) (hr : r.val = 2000 * t.val + p.val) :
    (((cfg0.win 2).blk t).view.emb (ix2 p q) : S50000x256.Idx) = ix2 r q := by
  obtain ⟨-, -, -, -, e4, e5⟩ := blocks0 t
  funext a
  apply Fin.ext
  match a with
  | ⟨0, _⟩ => show win0_2.index t (0 : Fin 2) * 2000 + 1 * p.val = r.val; omega
  | ⟨1, _⟩ => show win0_2.index t (1 : Fin 2) * 256 + 1 * q.val = q.val; omega

/-- Point t of region 0 writes back rows [2000·t, 2000·t + 2000) of the product of the two arrays. -/
theorem flushed0 (c : Dev nD) (t : Fin cfg0.N) :
    (dat0 (F := Ideal) V c).flushed 2 t
      = ((cfg0.win 2).blk t).view.read (Elt Ideal) (mm (M := 50000) (K := 512) (N := 256) (V c main_v0) (V c main_v33)) := by
  show (cfg0.win 2).cut (grid0.coords t) ((dat0 (F := Ideal) V c).after 2 t) = _
  rw [after0_2]
  unfold out0_2
  rw [View.canon_unit_zero off_zero]
  simp only [View.ld_unit_zero (S := S2000x512) off_zero, View.ld_unit_zero (S := S512x256) off_zero]
  funext j
  obtain ⟨p, q, rfl⟩ : ∃ (p : Fin 2000) (q : Fin 256), j = ix2 p q := ⟨j 0, j 1, eq_ix2 j⟩
  refine (prod0_apply _ _ p q).trans ?_
  have ht : t.val < 25 := t.isLt
  have hp : p.val < 2000 := p.isLt
  rw [View.read_apply, out0_emb t p q ⟨2000 * t.val + p.val, by omega⟩ rfl, mm_apply]
  refine Finset.sum_congr rfl fun k _ => ?_
  rw [left0_apply V c t p k ⟨2000 * t.val + p.val, by omega⟩ rfl, right0_apply V c t k q]

/-! ## Region 0: the row blocks tile the output -/

/-- An entry of the output array is in point t's block iff each coordinate is in the block's range on its axis. -/
theorem mem_rows0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v35).slice (win0_2.rect t)).set ↔ _
  rw [View.set_slice_whole, Rect.mem_set_unit]
  exact Iff.rfl

/-- Every entry of the output array lies in a block that is written back: row r is in the block of point r / 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 2000 < 25 := by omega
  obtain ⟨-, -, -, -, e4, e5⟩ := blocks0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_rows0]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    omega

/-- After region 0 the output array is the plain product of the left matrix by the right matrix as the region
    finds them. -/
theorem reg0_arr (c : Dev nD) :
    (dat0 (F := Ideal) V c).arrAt 2 cfg0.N = mm (M := 50000) (K := 512) (N := 256) (V c main_v0) (V c main_v33) :=
  (dat0 (F := Ideal) V c).arrAt_eq_of_cover 2 _ (fun t _ => flushed0 V c t) cover0

/-! ## Region 2: the product a point computes, entry by entry -/

/-- The second product's dimension record is the plain 2000 × 256 by 256 × 64 product's. -/
theorem dims2_plain : dot_S2000x256_S256x64_S2000x64_1_0_0_1_n_n = DotDims.plain 2000 256 64 := rfl

/-- Entry (p, q) of what a point of region 2 stores: Σₖ x0(p, k) · x1(k, q) over the 256 contraction positions. -/
theorem prod2_apply (x0 : Vec Ideal S2000x256 .f32) (x1 : Vec Ideal S256x64 .bf16) (p : Fin 2000) (q : Fin 64) :
    k2_pay1 (F := Ideal) x0 x1 (ix2 p q) = ∑ k : Fin 256, x0 (ix2 p k) * x1 (ix2 k q) := by
  unfold k2_pay1
  rw [shapeCast_self, shapeCast_self, dims2_plain]
  exact Cert.LibDot.mm_plain 2000 256 64 (φ₁ := .bf16) (φ₂ := .bf16) (truncf .bf16 x0 bitsLt_bf16_f32) x1 p q

/-! ## Region 2: what a point reads and what it writes back -/

/-- The block indices over the grid of region 2: at point t the left matrix's and the output's row block is t, the
    column block is 0, and the right matrix's block is (0, 0). -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the left block at point t is entry (2000·t + p, k) of the left matrix. -/
theorem left2_apply (c : Dev nD) (t : Fin cfg2.N) (p : Fin 2000) (k : Fin 256) (r : Fin 50000)
    (hr : r.val = 2000 * t.val + p.val) :
    (iblk2 V c 0 t : Vec Ideal S2000x256 .f32) (ix2 p k) = (V c main_v50 : S50000x256.Idx → EReal) (ix2 r k) := by
  obtain ⟨e0, e1, -, -, -, -⟩ := blocks2 t
  unfold iblk2
  rw [View.read_apply]
  show V c main_v50 _ = V c main_v50 _
  congr 1
  funext a
  apply Fin.ext
  match a with
  | ⟨0, _⟩ => show win2_0.index t (0 : Fin 2) * 2000 + 1 * p.val = r.val; omega
  | ⟨1, _⟩ => show win2_0.index t (1 : Fin 2) * 256 + 1 * k.val = k.val; omega

/-- The right block at every point is the whole right matrix. -/
theorem right2_apply (c : Dev nD) (t : Fin cfg2.N) (k : Fin 256) (q : Fin 64) :
    (iblk2 V c 1 t : Vec Ideal S256x64 .bf16) (ix2 k q) = (V c main_v34 : S256x64.Idx → EReal) (ix2 k q) := by
  obtain ⟨-, -, e2, e3, -, -⟩ := blocks2 t
  unfold iblk2
  rw [View.read_apply]
  show V c main_v34 _ = V c main_v34 _
  congr 1
  funext a
  apply Fin.ext
  match a with
  | ⟨0, _⟩ => show win2_1.index t (0 : Fin 2) * 256 + 1 * k.val = k.val; omega
  | ⟨1, _⟩ => show win2_1.index t (1 : Fin 2) * 64 + 1 * q.val = q.val; omega

/-- Entry (p, q) of the output block at point t sits at entry (2000·t + p, q) of the output array. -/
theorem out2_emb (t : Fin cfg2.N) (p : Fin 2000) (q : Fin 64) (r : Fin 50000) (hr : r.val = 2000 * t.val + p.val) :
    (((cfg2.win 2).blk t).view.emb (ix2 p q) : S50000x64.Idx) = ix2 r q := by
  obtain ⟨-, -, -, -, e4, e5⟩ := blocks2 t
  funext a
  apply Fin.ext
  match a with
  | ⟨0, _⟩ => show win2_2.index t (0 : Fin 2) * 2000 + 1 * p.val = r.val; omega
  | ⟨1, _⟩ => show win2_2.index t (1 : Fin 2) * 64 + 1 * q.val = q.val; omega

/-- Point t of region 2 writes back rows [2000·t, 2000·t + 2000) of the product of the two arrays. -/
theorem flushed2 (c : Dev nD) (t : Fin cfg2.N) :
    (dat2 (F := Ideal) V c).flushed 2 t
      = ((cfg2.win 2).blk t).view.read (Elt Ideal) (mm (M := 50000) (K := 256) (N := 64) (V c main_v50) (V c main_v34)) := by
  show (cfg2.win 2).cut (grid2.coords t) ((dat2 (F := Ideal) V c).after 2 t) = _
  rw [after2_2]
  unfold out2_2
  rw [View.canon_unit_zero off_zero]
  simp only [View.ld_unit_zero (S := S2000x256) off_zero, View.ld_unit_zero (S := S256x64) off_zero]
  funext j
  obtain ⟨p, q, rfl⟩ : ∃ (p : Fin 2000) (q : Fin 64), j = ix2 p q := ⟨j 0, j 1, eq_ix2 j⟩
  refine (prod2_apply _ _ p q).trans ?_
  have ht : t.val < 25 := t.isLt
  have hp : p.val < 2000 := p.isLt
  rw [View.read_apply, out2_emb t p q ⟨2000 * t.val + p.val, by omega⟩ rfl, mm_apply]
  refine Finset.sum_congr rfl fun k _ => ?_
  rw [left2_apply V c t p k ⟨2000 * t.val + p.val, by omega⟩ rfl, right2_apply V c t k q]

/-! ## Region 2: the row blocks tile the output -/

/-- An entry of the output array is in point t's block iff each coordinate is in the block's range on its axis. -/
theorem mem_rows2 (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v51).slice (win2_2.rect t)).set ↔ _
  rw [View.set_slice_whole, Rect.mem_set_unit]
  exact Iff.rfl

/-- Every entry of the output array lies in a block that is written back: row r is in the block of point r / 2000. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hlt : (i 0).val / 2000 < 25 := by omega
  obtain ⟨-, -, -, -, e4, e5⟩ := blocks2 ⟨(i 0).val / 2000, hlt⟩
  have e4' : win2_2.index ⟨(i 0).val / 2000, hlt⟩ (0 : Fin 2) = (i 0).val / 2000 := e4
  refine ⟨⟨(i 0).val / 2000, hlt⟩, flush2_2 _, ?_⟩
  rw [mem_rows2]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    omega
  | ⟨1, _⟩ =>
    show win2_2.index ⟨(i 0).val / 2000, hlt⟩ (1 : Fin 2) * 64 ≤ (i 1).val
      ∧ (i 1).val < win2_2.index ⟨(i 0).val / 2000, hlt⟩ (1 : Fin 2) * 64 + 64
    omega

/-- After region 2 the output array is the plain product of the left matrix by the right matrix as the region
    finds them. -/
theorem reg2_arr (c : Dev nD) :
    (dat2 (F := Ideal) V c).arrAt 2 cfg2.N = mm (M := 50000) (K := 256) (N := 64) (V c main_v50) (V c main_v34) :=
  (dat2 (F := Ideal) V c).arrAt_eq_of_cover 2 _ (fun t _ => flushed2 V c t) cover2

end Cert.Gcn.RegionMatmul

end
-- ==== Proof.RegionAct.lean ====
/-
  The middle region of the two-layer graph convolution, read as one array function.

  The region visits the 25 blocks of 2000 rows of the aggregated activations; at each block it adds the one bias
  row to every row, takes the maximum with zero, multiplies entry by entry by the keep-mask's block and then by the
  keep-scale, and writes the block of the result. The blocks tile the 50000 rows, so the result array ends holding,
  entry by entry, (max(a(p, q) + b(0, q), 0) · w(p, q)) · 2 of the arrays the region found.
-/
import proofs.«125046_j62818191671411_1_alg».proof.Proof.Gen.KernelIdeal.Frame
import proofs.«125046_j62818191671411_1_alg».proof.Proof.Spec
import Idealize.ShloMosaic.PureOps.Ideal.Laws
import Idealize.ShloMosaic.Lib.ValueIdx
import Idealize.ShloMosaic.Lib.ValueLayout
import Idealize.ShloMosaic.Lib.Pipeline.Value
noncomputable section
namespace Cert.Gcn.RegionAct
open Idealize.ShloMosaic Idealize.ShloMosaic.ValueIdx Idealize.ShloMosaic.TcCoe Idealize.SL.Sem
open Cert.KernelIdeal Cert.KernelIdeal.Gen Cert.Gcn

/-! ## One entry of a block -/

/-- Entry (p, q) of what the body computes from a block of activations, the bias row and a block of the mask:
    (max(x(p, q) + b(0, q), 0) · w(p, q)) · 2. -/
theorem entry (x : Vec Ideal S2000x256 .f32) (b : Vec Ideal S1x256 .f32) (w : Vec Ideal S2000x256 .f32)
    (p : Fin 2000) (q : Fin 256) :
    k1_pay1 (F := Ideal) x b w (ix2 p q) = (max (x (ix2 p q) + b (ix2 (0 : Fin 1) q)) Z * w (ix2 p q)) * Two := by
  unfold k1_pay1
  rw [mulf_apply, mulf_apply, maximumf_apply, addf_apply, broadcast_apply, broadcast_apply,
    shapeCast_self, shapeCast_self, shapeCast_self, broadcastTo_1b_ab_apply]
  rfl

/-- The same entry when the three blocks are pieces of whole arrays: if block entry (p, q) of the activations and of
    the mask is array entry (r, q), and the bias block is the bias row, the body's entry (p, q) is entry (r, q) of the
    array function. -/
theorem entry_of_arrays (a : S50000x256.Idx → EReal) (b : S1x256.Idx → EReal) (w : S50000x256.Idx → EReal)
    (x : Vec Ideal S2000x256 .f32) (y : Vec Ideal S1x256 .f32) (z : Vec Ideal S2000x256 .f32)
    (p : Fin 2000) (q : Fin 256) (r : Fin 50000)
    (hx : x (ix2 p q) = a (ix2 r q)) (hy : y (ix2 (0 : Fin 1) q) = b (ix2 (0 : Fin 1) q))
    (hz : z (ix2 p q) = w (ix2 r q)) :
    k1_pay1 (F := Ideal) x y z (ix2 p q) = act (M := 50000) (N := 256) a b w (ix2 r q) := by
  rw [act_apply, entry, hx, hy, hz]

/-! ## The blocks: which rows each grid point reads and writes -/

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- Grid point t takes block t of the rows of the activations, of the mask and of the result, all 256 columns, and
    the whole bias row. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p, column q of the block of point t is row 2000·t + p, column q of the array: the activations. -/
theorem rows_act (t : Fin cfg1.N) (p : Fin 2000) (q : Fin 256) (r : Fin 50000) (hr : r.val = t.val * 2000 + p.val) :
    ((cfg1.win 0).blk t).view.emb (ix2 p q) = ix2 r q := by
  obtain ⟨e0, e1, -⟩ := block_indices t
  funext a; apply Fin.ext
  match a with
  | ⟨0, _⟩ => show win1_0.index t (0 : Fin 2) * 2000 + 1 * p.val = r.val; omega
  | ⟨1, _⟩ => show win1_0.index t (1 : Fin 2) * 256 + 1 * q.val = q.val; omega

/-- The same rows of the keep-mask. -/
theorem rows_mask (t : Fin cfg1.N) (p : Fin 2000) (q : Fin 256) (r : Fin 50000) (hr : r.val = t.val * 2000 + p.val) :
    ((cfg1.win 2).blk t).view.emb (ix2 p q) = ix2 r q := by
  obtain ⟨-, -, -, -, e0, e1, -⟩ := block_indices t
  funext a; apply Fin.ext
  match a with
  | ⟨0, _⟩ => show win1_2.index t (0 : Fin 2) * 2000 + 1 * p.val = r.val; omega
  | ⟨1, _⟩ => show win1_2.index t (1 : Fin 2) * 256 + 1 * q.val = q.val; omega

/-- The same rows of the result. -/
theorem rows_out (t : Fin cfg1.N) (p : Fin 2000) (q : Fin 256) (r : Fin 50000) (hr : r.val = t.val * 2000 + p.val) :
    ((cfg1.win 3).blk t).view.emb (ix2 p q) = ix2 r q := by
  obtain ⟨-, -, -, -, -, -, e0, e1⟩ := block_indices t
  funext a; apply Fin.ext
  match a with
  | ⟨0, _⟩ => show win1_3.index t (0 : Fin 2) * 2000 + 1 * p.val = r.val; omega
  | ⟨1, _⟩ => show win1_3.index t (1 : Fin 2) * 256 + 1 * q.val = q.val; omega

/-- The bias block is the whole bias row at every point. -/
theorem row_bias (t : Fin cfg1.N) (u : Fin 1) (q : Fin 256) :
    ((cfg1.win 1).blk t).view.emb (ix2 u q) = ix2 u q := by
  obtain ⟨-, -, e0, e1, -⟩ := block_indices t
  funext a; apply Fin.ext
  match a with
  | ⟨0, _⟩ => show win1_1.index t (0 : Fin 2) * 1 + 1 * u.val = u.val; omega
  | ⟨1, _⟩ => show win1_1.index t (1 : Fin 2) * 256 + 1 * q.val = q.val; omega

/-! ## What one grid point writes back -/

/-- Point t writes back block t of the array function: bias, rectifier, mask and scale of the arrays the region
    found. -/
theorem written_block (c : Dev nD) (t : Fin cfg1.N) :
    (dat1 (F := Ideal) V c).flushed 3 t
      = ((cfg1.win 3).blk t).view.read (Elt Ideal)
          (act (M := 50000) (N := 256) (V c main_v48) (V c main_v49) (V c main_v6)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S1x256) zero_offsets]
  funext j
  obtain ⟨p, q, rfl⟩ : ∃ (p : Fin 2000) (q : Fin 256), j = ix2 p q := ⟨j 0, j 1, eq_ix2 j⟩
  have ht : t.val < 25 := t.isLt
  have hp : p.val < 2000 := p.isLt
  have hr : t.val * 2000 + p.val < 50000 := by omega
  show k1_pay1 (F := Ideal) (iblk1 V c 0 t) (iblk1 V c 1 t) (iblk1 V c 2 t) (ix2 p q)
    = act (M := 50000) (N := 256) (V c main_v48) (V c main_v49) (V c main_v6) (((cfg1.win 3).blk t).view.emb (ix2 p q))
  rw [rows_out t p q ⟨_, hr⟩ rfl]
  refine entry_of_arrays (V c main_v48) (V c main_v49) (V c main_v6) (iblk1 V c 0 t) (iblk1 V c 1 t) (iblk1 V c 2 t)
    p q ⟨_, hr⟩ ?_ ?_ ?_
  · show V c main_v48 (((cfg1.win 0).blk t).view.emb (ix2 p q)) = _
    rw [rows_act t p q ⟨_, hr⟩ rfl]
  · show V c main_v49 (((cfg1.win 1).blk t).view.emb (ix2 (0 : Fin 1) q)) = _
    rw [row_bias t 0 q]
  · show V c main_v6 (((cfg1.win 2).blk t).view.emb (ix2 p q)) = _
    rw [rows_mask t p q ⟨_, hr⟩ rfl]

/-! ## The blocks tile the rows -/

/-- An entry of the result lies in point t's block iff each coordinate lies in the block's range on its axis. -/
theorem mem_block (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v50).slice (win1_3.rect t)).set ↔ _
  rw [View.set_slice_whole, Rect.mem_set_unit]
  exact Iff.rfl

/-- Row r lies in the block of point r / 2000, which is written back. -/
theorem rows_covered (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hq : (i 0).val / 2000 < 25 := by omega
  refine ⟨⟨(i 0).val / 2000, hq⟩, flush1_3 _, ?_⟩
  rw [mem_block]
  obtain ⟨-, -, -, -, -, -, e0, e1⟩ := block_indices ⟨(i 0).val / 2000, hq⟩
  have e0' : win1_3.index ⟨(i 0).val / 2000, hq⟩ (0 : Fin 2) = (i 0).val / 2000 := e0
  intro a
  match a with
  | ⟨0, _⟩ =>
    show win1_3.index ⟨(i 0).val / 2000, hq⟩ (0 : Fin 2) * 2000 ≤ (i 0).val
      ∧ (i 0).val < win1_3.index ⟨(i 0).val / 2000, hq⟩ (0 : Fin 2) * 2000 + 2000
    omega
  | ⟨1, _⟩ =>
    show win1_3.index ⟨(i 0).val / 2000, hq⟩ (1 : Fin 2) * 256 ≤ (i 1).val
      ∧ (i 1).val < win1_3.index ⟨(i 0).val / 2000, hq⟩ (1 : Fin 2) * 256 + 256
    omega

/-! ## The array after the region -/

/-- After the region the result array is, entry by entry, (max(a(p, q) + b(0, q), 0) · w(p, q)) · 2 of the
    activations a, the bias row b and the keep-mask w the region found. -/
theorem reg1_arr (c : Dev nD) :
    (dat1 (F := Ideal) V c).arrAt 3 cfg1.N = act (M := 50000) (N := 256) (V c main_v48) (V c main_v49) (V c main_v6) :=
  (dat1 V c).arrAt_eq_of_cover 3 _ (fun t _ => written_block V c t) rows_covered

end Cert.Gcn.RegionAct
end
-- ==== Proof.RefStages.lean ====
/-
  Three stages of the plain array program, read entry by entry over the extended reals.

  The first layer's linear map is the plain product of the node features (the batch axis of extent one dropped) by the
  first weight matrix; the second layer's is the plain product of the hidden activations by the second weight matrix.
  Between them the hidden activations are: the aggregated first-layer output plus the bias (made a row, repeated down
  the rows), rectified by the maximum with a zero splat, times the keep-mask converted to floats, times the splat of two
  — entry by entry, the two products in that order. A vector of 256 numbers viewed as a one-row matrix reads, at
  (0, q), the vector at q.
-/
import proofs.«125046_j62818191671411_1_alg».proof.Proof.RefRead
import proofs.«125046_j62818191671411_1_alg».proof.Proof.Spec
import proofs.«125046_j62818191671411_1_alg».proof.Proof.LibDotPlain
import Idealize.ShloMosaic.PureOps.Ideal.Laws
import Idealize.ShloMosaic.Lib.ValueIdx
import Idealize.ShloMosaic.Lib.Pipeline.Value

noncomputable section

namespace Cert.Gcn.RefStages

open Idealize.ShloMosaic Idealize.ShloMosaic.ValueIdx
open Cert.ReferenceIdeal Cert.ReferenceIdeal.Gen Cert.ReferenceIdeal.ReadP Cert.Gcn

/-- The first layer's dimension numbers are those of a plain 50000 × 512 by 512 × 256 product. -/
theorem dot1_plain : dot_S50000x512_S512x256_S50000x256_1_0_0_1_n_n = DotDims.plain 50000 512 256 := rfl

/-- The second layer's dimension numbers are those of a plain 50000 × 256 by 256 × 64 product. -/
theorem dot2_plain : dot_S50000x256_S256x64_S50000x64_1_0_0_1_n_n = DotDims.plain 50000 256 64 := rfl

/-- A vector viewed as a one-row matrix reads, at (0, q), the vector at q. -/
theorem row_apply (v : (⟨1, ![256]⟩ : Shape).Idx → EReal) (h : (⟨1, ![256]⟩ : Shape).ShapeCasts ⟨2, ![1, 256]⟩) (q : Fin 256) :
    shapeCast ⟨2, ![1, 256]⟩ v h (ix2 (0 : Fin 1) q) = v (ix1 q) :=
  shapeCast_apply v h _ _ (by
    rw [Shape.rowMajor_val_two, Shape.rowMajor_val_one]
    show q.val = 0 * 256 + q.val
    omega)

/-- The first layer's linear map is the plain product of the features by the weights. -/
theorem dot1_stage (x0 : (⟨S1x50000x512, .f32⟩ : BufTy).Contents (Elt Ideal)) (x3 : (⟨S512x256, .f32⟩ : BufTy).Contents (Elt Ideal)) :
    val_main_v32 (F := Ideal) x0 x3 = mm (M := 50000) (K := 512) (N := 256) (val_main_v0 (F := Ideal) x0) x3 := by
  funext i
  obtain ⟨p, q, rfl⟩ : ∃ (p : Fin 50000) (q : Fin 256), i = ix2 p q := ⟨i 0, i 1, eq_ix2 i⟩
  unfold val_main_v32
  rw [mm_apply, dot1_plain]
  exact Cert.LibDot.dg_plain 50000 512 256 _ _ p q

/-- The hidden activations: bias row, rectifier, keep-mask, scale, entry by entry. -/
theorem act_stage (x0 : (⟨S1x50000x512, .f32⟩ : BufTy).Contents (Elt Ideal)) (x1 : (⟨S1x2x800000, .i32⟩ : BufTy).Contents (Elt Ideal))
    (x2 : (⟨S1x50000x256, .i32⟩ : BufTy).Contents (Elt Ideal)) (x3 : (⟨S512x256, .f32⟩ : BufTy).Contents (Elt Ideal))
    (x4 : (⟨S256, .f32⟩ : BufTy).Contents (Elt Ideal)) (h : (⟨1, ![256]⟩ : Shape).ShapeCasts ⟨2, ![1, 256]⟩) :
    val_main_v53 (F := Ideal) x0 x1 x2 x3 x4
      = act (M := 50000) (N := 256) (val_main_v45 (F := Ideal) x0 x1 x3) (shapeCast ⟨2, ![1, 256]⟩ x4 h) (val_main_v50 (F := Ideal) x2) := by
  funext i
  obtain ⟨p, q, rfl⟩ : ∃ (p : Fin 50000) (q : Fin 256), i = ix2 p q := ⟨i 0, i 1, eq_ix2 i⟩
  have e : idx_main_v46 (idx_main_v47 (ix2 p q)) = ix1 q := funext fun a => match a with | ⟨0, _⟩ => rfl
  rw [act_apply, row_apply, val_main_v53_apply, val_main_v51_apply, val_main_v49_apply, val_main_v48_apply, val_main_v47_apply,
    val_main_v46_apply, val_main_v52_apply, val_main_cst_9_apply, val_main_call1_v0_apply, val_main_call1_cst_apply, e]
  simp only [Ideal.mulf_def, Ideal.addf_def, Ideal.maximumf_def, Ideal.ofBits_def]

/-- The second layer's linear map is the plain product of the hidden activations by the weights. -/
theorem dot2_stage (x0 : (⟨S1x50000x512, .f32⟩ : BufTy).Contents (Elt Ideal)) (x1 : (⟨S1x2x800000, .i32⟩ : BufTy).Contents (Elt Ideal))
    (x2 : (⟨S1x50000x256, .i32⟩ : BufTy).Contents (Elt Ideal)) (x3 : (⟨S512x256, .f32⟩ : BufTy).Contents (Elt Ideal))
    (x4 : (⟨S256, .f32⟩ : BufTy).Contents (Elt Ideal)) (x5 : (⟨S256x64, .f32⟩ : BufTy).Contents (Elt Ideal)) :
    val_main_v80 (F := Ideal) x0 x1 x2 x3 x4 x5 = mm (M := 50000) (K := 256) (N := 64) (val_main_v53 (F := Ideal) x0 x1 x2 x3 x4) x5 := by
  funext i
  obtain ⟨p, q, rfl⟩ : ∃ (p : Fin 50000) (q : Fin 64), i = ix2 p q := ⟨i 0, i 1, eq_ix2 i⟩
  unfold val_main_v80
  rw [mm_apply, dot2_plain]
  exact Cert.LibDot.dg_plain 50000 256 64 _ _ p q

end Cert.Gcn.RefStages

end
-- ==== Proof.KStages.lean ====
/-
  The kernel's program, boundary by boundary, at the extended reals: every array it holds is a stage of the plain
  array program applied to the same arguments.

  Narrowing a matrix to a shorter float format is the identity on extended reals, so the first matrix kernel, which
  leaves the plain product of the features by the narrowed first weight matrix, leaves the plain program's first linear
  map. The aggregation stretch then leaves its first aggregation; the pointwise kernel, which adds the bias row,
  rectifies, multiplies by the keep-mask and by two, leaves its hidden activations; the second matrix kernel leaves its
  second linear map; the last stretch leaves its result.
-/
import proofs.«125046_j62818191671411_1_alg».proof.Proof.KHost
import proofs.«125046_j62818191671411_1_alg».proof.Proof.RegionMatmul
import proofs.«125046_j62818191671411_1_alg».proof.Proof.RegionAct
import proofs.«125046_j62818191671411_1_alg».proof.Proof.RefStages

set_option maxRecDepth 16384

noncomputable section

namespace Cert.Gcn.KStages

open Idealize.ShloMosaic Idealize.ShloMosaic.TcCoe Idealize.SL.Sem
open Cert.KernelIdeal Cert.KernelIdeal.Gen
open Cert.ReferenceIdeal.ReadP
open Cert.Gcn Cert.Gcn.KHost Cert.Gcn.RefStages

variable (m : (ℓ : Loc nD τ sig) → Buf (Elt Ideal) ℓ) (ρ : Dev nD → PrngReg) (c : Dev nD)

/-- The first matrix kernel leaves the first linear map. -/
theorem W4_v35 : W4 m ρ c (Proc.devRef .tc main_v35) = val_main_v32 (F := Ideal) (m ((c : Thread nD τ).loc main_arg0)) (m ((c : Thread nD τ).loc main_arg3)) := by
  refine (W4_arr m ρ c 2).trans ?_
  rw [RegionMatmul.reg0_arr (V3 m ρ) c]
  show mm (M := 50000) (K := 512) (N := 256) (W3 m ρ c (Proc.devRef .tc main_v0)) (W3 m ρ c (Proc.devRef .tc main_v33)) = _
  rw [W3_v0 m ρ c, W3_v33 m ρ c, dot1_stage]
  rfl

/-- The aggregation stretch leaves the first aggregation. -/
theorem W5_v48_stage : W5 m ρ c (Proc.devRef .tc main_v48) = val_main_v45 (F := Ideal) (m ((c : Thread nD τ).loc main_arg0)) (m ((c : Thread nD τ).loc main_arg1)) (m ((c : Thread nD τ).loc main_arg3)) :=
  (W5_v48 m ρ c _ (W4_v35 m ρ c)).trans (ref_agg1 _ _ _).symm

/-- The pointwise kernel leaves the hidden activations. -/
theorem W6_v50 : W6 m ρ c (Proc.devRef .tc main_v50)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ?_
  rw [RegionAct.reg1_arr (V5 m ρ) c]
  show act (M := 50000) (N := 256) (W5 m ρ c (Proc.devRef .tc main_v48)) (W5 m ρ c (Proc.devRef .tc main_v49)) (W5 m ρ c (Proc.devRef .tc main_v6)) = _
  rw [W5_v48_stage m ρ c, W5_v49 m ρ c, W5_v6 m ρ c, act_stage _ _ _ _ _ shapeCasts_S256_S1x256]

/-- The second matrix kernel leaves the second linear map. -/
theorem W7_v51 : W7 m ρ c (Proc.devRef .tc main_v51)
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  rw [RegionMatmul.reg2_arr (V6 m ρ) c]
  show mm (M := 50000) (K := 256) (N := 64) (W6 m ρ c (Proc.devRef .tc main_v50)) (W6 m ρ c (Proc.devRef .tc main_v34)) = _
  rw [W6_v50 m ρ c, W6_v34 m ρ c, dot2_stage]
  rfl

/-- The last stretch leaves the plain program's result. -/
theorem result_stage : W8 m ρ c (Proc.devRef .tc main_v68)
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_v68 m ρ c _ (W7_v51 m ρ c)).trans (ref_agg2 _ _ _ _ _ _ _).symm

end Cert.Gcn.KStages

end
-- ==== Proof.lean ====
/-
  A two-layer graph convolution: three matrix kernels among host array operations, against one plain array program.

  Both programs compute, for node features X, edge list E, keep-mask M, weights W1, W2 and biases b1, b2,

      out = Agg(((max(Agg(X · W1) + b1, 0) · M) · 2) · W2) + b2,

  where Agg gathers the rows of a node matrix at the edges' sources, scales each by its edge weight (the product of the
  inverse square roots of the two end nodes' degrees, self-loops included) and scatter-sums them at the edges' targets.
  The kernel's program computes the two linear maps and the pointwise step in row blocks of 2000, narrowing the factors
  of each product to a shorter float format first; over the extended reals narrowing is the identity, a block of rows of
  a plain product is the same sum over the contraction index as the whole product's rows, and the pointwise step applies
  the same operations in the same order. The index and weight chains and the aggregation are the same host operations in
  both programs and are carried as they stand. No law of arithmetic beyond reading each operation at an index is used,
  so the inputs' finiteness is never opened.

  The frames of the two kernel programs are the generated ones; the plain program's frame is its run with the result
  dropped; the idealization rewrote nothing, so there is nothing to preserve.
-/
import proofs.«125046_j62818191671411_1_alg».proof.Defs
import proofs.«125046_j62818191671411_1_alg».proof.Proof.Gen.Kernel
import proofs.«125046_j62818191671411_1_alg».proof.Proof.Gen.Kernel.Skeleton
import proofs.«125046_j62818191671411_1_alg».proof.Proof.Gen.Kernel.Launch
import proofs.«125046_j62818191671411_1_alg».proof.Proof.Gen.Kernel.Points
import proofs.«125046_j62818191671411_1_alg».proof.Proof.Gen.Kernel.Frame
import proofs.«125046_j62818191671411_1_alg».proof.Proof.Gen.KernelIdeal
import proofs.«125046_j62818191671411_1_alg».proof.Proof.Gen.KernelIdeal.Skeleton
import proofs.«125046_j62818191671411_1_alg».proof.Proof.Gen.KernelIdeal.Launch
import proofs.«125046_j62818191671411_1_alg».proof.Proof.Gen.KernelIdeal.Points
import proofs.«125046_j62818191671411_1_alg».proof.Proof.Gen.KernelIdeal.Frame
import proofs.«125046_j62818191671411_1_alg».proof.Proof.Gen.ReferenceIdeal
import proofs.«125046_j62818191671411_1_alg».proof.Proof.Gen.Pre_finite_inputs
import proofs.«125046_j62818191671411_1_alg».proof.Proof.ResultRun
import proofs.«125046_j62818191671411_1_alg».proof.Proof.RefRun
import proofs.«125046_j62818191671411_1_alg».proof.Proof.RefRead
import proofs.«125046_j62818191671411_1_alg».proof.Proof.KStages
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The plain program runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the plain program's result term of the (agreeing) arguments. -/
theorem algebraic : Cert.algebraic_KernelIdeal_ReferenceIdeal := by
  intro m ρ m' ρ' _ hagree
  refine ⟨fun c => Cert.ReferenceIdeal.ReadP.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨((h c).1).trans (Cert.Gcn.KStages.result_stage m ρ c), (h c).2⟩)
      (Cert.KernelIdeal.ResultRun.run_result (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v97_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
